-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S16384x4096 : Shape := ⟨2, ![16384, 4096]⟩
abbrev S16384 : Shape := ⟨1, ![16384]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S2x2048x4096 .f32) (main_arg1 : FVec F S16384x4096 .f32) (main_arg2 : IVec S16384x4096 1) (main_arg3 : FVec F S16384 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S2x2048x4096 : Shape := ⟨3, ![2, 2048, 4096]⟩
abbrev S16384x4096 : Shape := ⟨2, ![16384, 4096]⟩
abbrev S16384 : Shape := ⟨1, ![16384]⟩
abbrev S4096x4096 : Shape := ⟨2, ![4096, 4096]⟩
abbrev S4096x16384 : Shape := ⟨2, ![4096, 16384]⟩
abbrev S1024x512 : Shape := ⟨2, ![1024, 512]⟩
abbrev S1024 : Shape := ⟨1, ![1024]⟩
abbrev S1024x1024 : Shape := ⟨2, ![1024, 1024]⟩
abbrev S1x1024 : Shape := ⟨2, ![1, 1024]⟩
abbrev S2x2048x16384 : Shape := ⟨3, ![2, 2048, 16384]⟩

abbrev nBuf : Space → Nat
  | .hbm => 8
  | .vmem => 11
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .f32⟩
  | .hbm, ⟨2, _⟩ => ⟨S16384x4096, .i1⟩
  | .hbm, ⟨3, _⟩ => ⟨S16384, .f32⟩
  | .hbm, ⟨4, _⟩ => ⟨S4096x4096, .f32⟩
  | .hbm, ⟨5, _⟩ => ⟨S16384x4096, .i32⟩
  | .hbm, ⟨6, _⟩ => ⟨S4096x16384, .f32⟩
  | .hbm, ⟨7, _⟩ => ⟨S2x2048x16384, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .i32⟩
  | .local _ .vmem, ⟨5, _⟩ => ⟨S1024x512, .i32⟩
  | .local _ .vmem, ⟨6, _⟩ => ⟨S1024, .f32⟩
  | .local _ .vmem, ⟨7, _⟩ => ⟨S1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2x2048x4096_S4096x4096 : S2x2048x4096.ShapeCasts S4096x4096
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S4096x16384_S2x2048x16384 : S4096x16384.ShapeCasts S2x2048x16384
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x4096.size a
  hwx0_1 : ∀ i : grid0.Coords, EltTy.bits .f32 = 32 ∨ (Rect.block (s := S16384x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x4096.size a
  hwx0_2 : ∀ i : grid0.Coords, EltTy.bits .i32 = 32 ∨ (Rect.block (s := S16384x4096) S1024x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S16384.size a
  hwx0_3 : ∀ i : grid0.Coords, EltTy.bits .f32 = 32 ∨ (Rect.block (s := S16384) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x16384.size a
  hwx0_4 : ∀ i : grid0.Coords, EltTy.bits .f32 = 32 ∨ (Rect.block (s := S4096x16384) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S16384x4096 : Shape := ⟨2, ![16384, 4096]⟩
abbrev S16384 : Shape := ⟨1, ![16384]⟩
abbrev S2x2048x16384 : Shape := ⟨3, ![2, 2048, 16384]⟩
abbrev S1x1x16384 : Shape := ⟨3, ![1, 1, 16384]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .f32⟩
  | .hbm, ⟨2, _⟩ => ⟨S16384x4096, .i1⟩
  | .hbm, ⟨3, _⟩ => ⟨S16384, .f32⟩
  | .hbm, ⟨4, _⟩ => ⟨S16384x4096, .f32⟩
  | .hbm, ⟨5, _⟩ => ⟨S16384x4096, .f32⟩
  | .hbm, ⟨6, _⟩ => ⟨S2x2048x16384, .f32⟩
  | .hbm, ⟨7, _⟩ => ⟨S1x1x16384, .f32⟩
  | .hbm, ⟨8, _⟩ => ⟨S2x2048x16384, .f32⟩
  | .hbm, ⟨9, _⟩ => ⟨S2x2048x16384, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  dot_S2x2048x4096_S16384x4096_S2x2048x16384_2_1_01_0_n_n_wf : DotDims.WF S2x2048x4096 S16384x4096 S2x2048x16384 [2] [1] [0, 1] [0] [] []

variable [Facts₀]

def dot_S2x2048x4096_S16384x4096_S2x2048x16384_2_1_01_0_n_n : DotDims S2x2048x4096 S16384x4096 S2x2048x16384 where
  lhsContracting := [2]
  rhsContracting := [1]
  lhsNonContracting := [0, 1]
  rhsNonContracting := [0]
  lhsBatch := []
  rhsBatch := []
  wf := dot_S2x2048x4096_S16384x4096_S2x2048x16384_2_1_01_0_n_n_wf

class Facts : Prop extends Facts₀ where

variable [Facts]
-- ==== Proof.KernelIdealPieces.lean ====
/-
  What one run of the kernel body leaves behind, as values of what it loaded.

  The body keeps a [1024, 1024] accumulator in a scratch buffer that lives across grid points. Every run adds to it the
  product of the point's activation block with the point's masked weight block (the masked weights contracted on their
  last axis). At the first of the eight contraction steps the accumulator is first overwritten with zeros, so the run
  leaves zero + product; at a later step it leaves (what the step before left) + product. At the eighth step the run
  also stores accumulator + bias (the bias laid along the rows) into the output block.
-/
import proofs.«122138_j13675175870903_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem zero_offsets2 : (![0, 0] : Fin 2 → Nat) = fun _ => 0 := funext fun a => by fin_cases a <;> rfl
theorem zero_offsets1 : (![0] : Fin 1 → Nat) = fun _ => 0 := funext fun a => by fin_cases a <;> rfl

/-- A later step that is not the last: the accumulator ends at the body's accumulate-payload of the three input blocks
    and of what it held. -/
theorem scratch_mid (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .i32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S1024x512 .f32) (x2 : Vec F S1024x512 .i32) (x3 : Vec F S1024 .f32) (xs0 : Vec F S1024x1024 .f32) :
    sout0_B_0 c i arg3 harg3 arg4 harg4 arg5 harg5 arg6 harg6 arg7 harg7 arg8 harg8 hc0 hc1 x0 x1 x2 x3 xs0 = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero zero_offsets2]
  simp only [View.readAt_eq_ld, harg3.read_unread, harg4.read_unread, harg5.read_unread, harg8.read_unread,
    View.ld_unit_zero (S := S1024x512) zero_offsets2, View.ld_unit_zero (S := S1024x1024) zero_offsets2]

/-- The last step: the accumulator ends the same way … -/
theorem scratch_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .i32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .f32) (x1 : Vec F S1024x512 .f32) (x2 : Vec F S1024x512 .i32) (x3 : Vec F S1024 .f32) (xs0 : Vec F S1024x1024 .f32) :
    sout0_C_0 c i arg3 harg3 arg4 harg4 arg5 harg5 arg6 harg6 arg7 harg7 arg8 harg8 hc0 hc1 x0 x1 x2 x3 xs0 = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero zero_offsets2]
  simp only [View.readAt_eq_ld, harg3.read_unread, harg4.read_unread, harg5.read_unread, harg8.read_unread,
    View.ld_unit_zero (S := S1024x512) zero_offsets2, View.ld_unit_zero (S := S1024x1024) zero_offsets2]

/-- … and the output block ends at the bias-payload of that accumulator and the bias block. -/
theorem out_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .i32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .f32) (x1 : Vec F S1024x512 .f32) (x2 : Vec F S1024x512 .i32) (x3 : Vec F S1024 .f32) (xs0 : Vec F S1024x1024 .f32) :
    out0_C_4 c i arg3 harg3 arg4 harg4 arg5 harg5 arg6 harg6 arg7 harg7 arg8 harg8 hc0 hc1 x0 x1 x2 x3 xs0 = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero zero_offsets2]
  simp only [View.readAt_eq_ld, harg3.read_unread, harg4.read_unread, harg5.read_unread, harg6.read_unread, harg8.read_unread,
    View.ld_unit_zero (S := S1024x512) zero_offsets2, View.ld_unit_zero (S := S1024x1024) zero_offsets2,
    View.ld_unit_zero (S := S1024) zero_offsets1, View.readCov_unit_zero (S := S1024x1024) _ zero_offsets2]

/-- The first step: the zeros are stored, read back, and the accumulator ends at the accumulate-payload over them. -/
theorem scratch_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .i32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x512 .f32) (x1 : Vec F S1024x512 .f32) (x2 : Vec F S1024x512 .i32) (x3 : Vec F S1024 .f32) :
    sout0_A_0 c i arg3 harg3 arg4 harg4 arg5 harg5 arg6 harg6 arg7 harg7 arg8 harg8 hc0 hc1 x0 x1 x2 x3 = k0_pay2 x0 x1 x2 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) zero_offsets2, View.readCov_unit_zero (S := S1024x1024) _ zero_offsets2]
  simp only [View.readAt_eq_ld, harg3.read_unread, harg4.read_unread, harg5.read_unread,
    View.ld_unit_zero (S := S1024x512) zero_offsets2, View.ld_unit_zero (S := S1024x1024) zero_offsets2]

end Cert.KernelIdeal.Pieces

end
-- ==== Proof.KernelIdealAccumulate.lean ====
/-
  The accumulator, point by point.

  The grid runs its 512 points in order, the contraction step k = t mod 8 fastest. The accumulator after point t is
  therefore a fold that restarts whenever t mod 8 = 0: there it is (accumulate-payload of the point's blocks over the
  stored zeros), elsewhere (accumulate-payload of the point's blocks over the accumulator after point t − 1). What the
  frame's bookkeeping says the scratch buffer holds after each point is exactly this fold, and at the points with
  t mod 8 = 7 the output block holds the bias-payload of it.
-/
import proofs.«122138_j13675175870903_1_alg».proof.Proof.KernelIdealPieces

noncomputable section

namespace Cert.KernelIdeal.Accum

open Idealize.ShloMosaic Idealize.ShloMosaic.TcCoe Idealize.SL.Sem
open Cert.KernelIdeal Cert.KernelIdeal.Gen Cert.KernelIdeal.Pieces

variable {F : FTy → Type} [FloatOps F]
variable (m : (ℓ : Loc nD τ sig) → Buf (Elt F) ℓ)

/-- The four input blocks of a point, at their literal types: activations, weights, mask words, bias. -/
abbrev actBlk (c : Dev nD) (t : Fin cfg0.N) : Vec F S1024x512 .f32 := iblk m c 0 t
abbrev wgtBlk (c : Dev nD) (t : Fin cfg0.N) : Vec F S1024x512 .f32 := iblk m c 1 t
abbrev mskBlk (c : Dev nD) (t : Fin cfg0.N) : Vec F S1024x512 .i32 := iblk m c 2 t
abbrev biasBlk (c : Dev nD) (t : Fin cfg0.N) : Vec F S1024 .f32 := iblk m c 3 t

/-- The accumulator after point `n`: a fold over the points that restarts from the stored zeros where `n mod 8 = 0`. -/
def accAt (c : Dev nD) : (n : ℕ) → n < cfg0.N → Vec F S1024x1024 .f32
  | 0, h => k0_pay2 (actBlk m c ⟨0, h⟩) (wgtBlk m c ⟨0, h⟩) (mskBlk m c ⟨0, h⟩) (k0_pay1 (F := F))
  | n + 1, h =>
    if (n + 1) % 8 = 0 then k0_pay2 (actBlk m c ⟨n + 1, h⟩) (wgtBlk m c ⟨n + 1, h⟩) (mskBlk m c ⟨n + 1, h⟩) (k0_pay1 (F := F))
    else k0_pay2 (actBlk m c ⟨n + 1, h⟩) (wgtBlk m c ⟨n + 1, h⟩) (mskBlk m c ⟨n + 1, h⟩) (accAt c n (Nat.lt_of_succ_lt h))

theorem accAt_restart (c : Dev nD) (t : Fin cfg0.N) (h0 : t.val % 8 = 0) :
    accAt m c t.val t.isLt = k0_pay2 (actBlk m c t) (wgtBlk m c t) (mskBlk m c t) (k0_pay1 (F := F)) := by
  obtain ⟨n, hn⟩ := t
  cases n with
  | zero => rfl
  | succ n => exact if_pos h0

theorem accAt_step (c : Dev nD) (n : ℕ) (h : n + 1 < cfg0.N) (h0 : ¬(n + 1) % 8 = 0) :
    accAt m c (n + 1) h
      = k0_pay2 (actBlk m c ⟨n + 1, h⟩) (wgtBlk m c ⟨n + 1, h⟩) (mskBlk m c ⟨n + 1, h⟩) (accAt m c n (Nat.lt_of_succ_lt h)) :=
  if_neg h0

/-- The scratch buffer after point `n` holds the fold. -/
theorem scratch_eq (c : Dev nD) : ∀ (n : ℕ) (h : n < cfg0.N), (outsAt0 m c n h).2 = accAt m c n h
  | 0, h => by
    have h0 : (⟨0, h⟩ : Fin cfg0.N).val % 8 = 0 := rfl
    have h1 : ¬(⟨0, h⟩ : Fin cfg0.N).val % 8 = 7 := by show ¬(0 : ℕ) % 8 = 7; decide
    rw [outsAt0_A m c (⟨0, h⟩ : Fin cfg0.N) h0 h1]
    dsimp only
    exact scratch_first c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) scM0_0 (Memref.isWhole_whole _) ((hcond0_0 (⟨0, h⟩ : Fin cfg0.N)).mpr h0) (fun hh => h1 ((hcond0_1 (⟨0, h⟩ : Fin cfg0.N)).mp hh)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N))
  | n + 1, h => by
    by_cases h0 : (n + 1) % 8 = 0
    · have h1 : ¬(n + 1) % 8 = 7 := by omega
      rw [outsAt0_A m c (⟨n + 1, h⟩ : Fin cfg0.N) h0 h1, accAt_restart m c (⟨n + 1, h⟩ : Fin cfg0.N) h0]
      dsimp only
      exact scratch_first c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) ((hcond0_0 (⟨n + 1, h⟩ : Fin cfg0.N)).mpr h0) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N))
    · rw [accAt_step m c n h h0, ← scratch_eq c n (Nat.lt_of_succ_lt h)]
      by_cases h1 : (n + 1) % 8 = 7
      · rw [outsAt0_C m c (⟨n + 1, h⟩ : Fin cfg0.N) h0 h1]
        dsimp only
        exact scratch_last c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2
      · rw [outsAt0_B m c (⟨n + 1, h⟩ : Fin cfg0.N) h0 h1]
        dsimp only
        exact scratch_mid c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (outsAt0 m c n (Nat.lt_of_succ_lt h)).2

/-- At a point with `t mod 8 = 7` the output block holds the bias-payload of the fold and the bias block. -/
theorem out_eq (c : Dev nD) (t : Fin cfg0.N) (h1 : t.val % 8 = 7) :
    (outsAt0 m c t.val t.isLt).1 = k0_pay3 (accAt m c t.val t.isLt) (biasBlk m c t) := by
  have h0 : ¬t.val % 8 = 0 := by omega
  obtain ⟨n, hn⟩ := t
  cases n with
  | zero => exact absurd h1 (by show ¬(0 : ℕ) % 8 = 7; decide)
  | succ n =>
    rw [outsAt0_C m c (⟨n + 1, hn⟩ : Fin cfg0.N) h0 h1, accAt_step m c n hn h0, ← scratch_eq m c n (Nat.lt_of_succ_lt hn)]
    dsimp only
    exact out_last c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) scM0_0 (Memref.isWhole_whole _) (fun hh => h0 ((hcond0_0 (⟨n + 1, hn⟩ : Fin cfg0.N)).mp hh)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (outsAt0 m c n (Nat.lt_of_succ_lt hn)).2

end Cert.KernelIdeal.Accum

end
-- ==== Proof.LibMatmulTransposedRhs.lean ====
/-
  A matrix product A · Bᵀ — a left operand [M, K] against a right operand stored [N, K], both contracted on their last
  axis, no batch axes (`DotDims.transposedRhs M K N`) — into the zero accumulator, read at an entry over the extended
  reals: entry (r, c) is the sum over k of a (r, k) · b (c, k). The left operand is read at the output's row and the
  contraction coordinate, the right one at the output's COLUMN and the contraction coordinate. Stated at any extents,
  with every index written by its coordinates.
-/
import Idealize.ShloMosaic.Lib.ValueIdx
import Idealize.ShloMosaic.PureOps.Ideal.Laws

noncomputable section

namespace Cert.MatmulTransposedRhs

open Idealize.ShloMosaic Idealize.ShloMosaic.ValueIdx

variable {M K N : ℕ}

/-- The left operand's first coordinate is the output's row: its axis 0 is the one kept axis of the left side, and
    the kept left axes come first among the output's. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The left operand's second coordinate is the contraction coordinate. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's first coordinate is the output's COLUMN: its axis 0 is the one kept axis of the right side,
    which comes after the left side's kept axis among the output's. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- The right operand's second coordinate is the contraction coordinate. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- Entry (r, c) of A · Bᵀ into the zero accumulator is the sum over k of a (r, k) · b (c, k). -/
theorem apply (prec : Option ContractPrecision) {φ₁ φ₂ : FTy} (a : FVec Ideal ⟨2, ![M, K]⟩ φ₁) (b : FVec Ideal ⟨2, ![N, K]⟩ φ₂)
    (r : Fin M) (c : Fin N) :
    FloatOps.matmul (DotDims.transposedRhs M K N) prec a b (constant ⟨2, ![M, N]⟩ .f32 0x00000000#32) (ix2 r c)
      = ∑ k : Fin K, a (ix2 r k) * b (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k :=
    funext fun x => Fin.ext (by
      match x with
      | ⟨0, _⟩ => exact lhs_row _ _
      | ⟨1, _⟩ => exact (lhs_col _ _).trans hk)
  have er : (DotDims.transposedRhs M K N).rhsIdx (ix2 r c) ((contrEquiv1 (DotDims.transposedRhs M K N) K rfl rfl).symm k)
      = ix2 c k :=
    funext fun x => Fin.ext (by
      match x with
      | ⟨0, _⟩ => exact rhs_row _ _
      | ⟨1, _⟩ => exact (rhs_col _ _).trans hk)
  rw [el, er]

end Cert.MatmulTransposedRhs

end
-- ==== Proof.MaskedLinearSpec.lean ====
/-
  The masked linear layer as ONE function of its four argument arrays, over the extended reals, and the
  arithmetic that joins a contraction taken eight runs of 512 at a time to the contraction taken whole.

  With x of shape [2, 2048, 4096], a weight w and a mask of shape [16384, 4096] and a bias of length 16384, the layer is
      y (b, s, o) = (sum over k < 4096 of x (b, s, k) * (w (o, k) * [mask (o, k)])) + bias o,
  where [mask] is 1 on a set bit and 0 on a cleared one. Both programs compute exactly these products; they differ in
  how the 4096 products of one entry are grouped (all at once, or run by run into an accumulator that starts at 0)
  and in how the rows (b, s) are laid out (as they are, or flattened to 2048 b + s). Regrouping a finite sum needs only
  that addition is commutative and associative, which holds on the extended reals; nothing here needs the inputs finite.
-/
import Idealize.ShloMosaic.Lib.ValueIdx
import Idealize.ShloMosaic.PureOps.Ideal.Laws
import Mathlib.Algebra.BigOperators.Group.Finset.Basic
import Mathlib.Algebra.BigOperators.Fin

noncomputable section

namespace Cert.MaskedLinear

open Idealize.ShloMosaic Idealize.ShloMosaic.ValueIdx Finset

/-- A mask bit as a number: 1 when set, 0 when cleared. -/
def bitVal (b : BitVec 1) : EReal := ((b.toNat : ℝ) : EReal)

/-- The product the layer sums at output row `r` (of the flattened 4096 rows), output feature `o` and input feature `k`,
    from the flattened activations `a`, the weight `w` and the mask already turned into numbers `mk`. -/
def term (a : (⟨2, ![4096, 4096]⟩ : Shape).Idx → EReal) (w : (⟨2, ![16384, 4096]⟩ : Shape).Idx → EReal)
    (mk : (⟨2, ![16384, 4096]⟩ : Shape).Idx → EReal) (r : Fin 4096) (o : Fin 16384) (k : Fin 4096) : EReal :=
  a (ix2 r k) * (w (ix2 o k) * mk (ix2 o k))

/-- The layer on flattened rows: entry (r, o) is the whole contraction plus the bias. -/
def flat (a : (⟨2, ![4096, 4096]⟩ : Shape).Idx → EReal) (w : (⟨2, ![16384, 4096]⟩ : Shape).Idx → EReal)
    (mk : (⟨2, ![16384, 4096]⟩ : Shape).Idx → EReal) (bias : (⟨1, ![16384]⟩ : Shape).Idx → EReal) :
    (⟨2, ![4096, 16384]⟩ : Shape).Idx → EReal :=
  fun i => (∑ k : Fin 4096, term a w mk (i 0) (i 1) k) + bias (ix1 (i 1))

/-- Row (b, s) of the [2, 2048, ·] layout is row 2048 b + s of the flattened one. -/
def flatRow (b : Fin 2) (s : Fin 2048) : Fin 4096 := ⟨2048 * b.val + s.val, by have := b.isLt; have := s.isLt; omega⟩

/-- The layer in the layout of its arguments: entry (b, s, o). -/
def layer (x : (⟨3, ![2, 2048, 4096]⟩ : Shape).Idx → EReal) (w : (⟨2, ![16384, 4096]⟩ : Shape).Idx → EReal)
    (msk : (⟨2, ![16384, 4096]⟩ : Shape).Idx → BitVec 1) (bias : (⟨1, ![16384]⟩ : Shape).Idx → EReal) :
    (⟨3, ![2, 2048, 16384]⟩ : Shape).Idx → EReal :=
  fun i => (∑ k : Fin 4096, x (ix3 (i 0) (i 1) k) * (w (ix2 (i 2) k) * bitVal (msk (ix2 (i 2) k)))) + bias (ix1 (i 2))

/-! ## A contraction taken run by run -/

/-- A function on `Fin n` extended by 0 to the naturals, so that runs can be addressed by plain arithmetic. -/
def ext {n : ℕ} (f : Fin n → EReal) : ℕ → EReal := fun i => if h : i < n then f ⟨i, h⟩ else 0

theorem ext_val {n : ℕ} (f : Fin n → EReal) (i : Fin n) : ext f i.val = f i := by
  unfold ext; rw [dif_pos i.isLt]

theorem sum_ext {n : ℕ} (f : Fin n → EReal) : ∑ i ∈ range n, ext f i = ∑ i : Fin n, f i := by
  rw [Finset.sum_range]; exact Finset.sum_congr rfl fun i _ => ext_val f i

/-- Run `s` holds the naturals `n·s … n·s + n − 1`; the first `k` runs together are `0 … n·k − 1`: summing each run
    and then the runs is the one long sum. Only commutativity and associativity of the addition are used. -/
theorem sum_range_runs {β : Type*} [AddCommMonoid β] (n : ℕ) (f : ℕ → β) (k : ℕ) :
    ∑ s ∈ range k, ∑ p ∈ range n, f (n * s + p) = ∑ i ∈ range (n * k), f i := by
  induction k with
  | zero => simp
  | succ k ih => rw [sum_range_succ, ih, Nat.mul_succ, sum_range_add]

/-- Eight runs of 512 make the contraction over 4096. -/
theorem eight_runs (f : Fin 4096 → EReal) :
    ∑ s ∈ range 8, ∑ p ∈ range 512, ext f (512 * s + p) = ∑ i : Fin 4096, f i := by
  rw [sum_range_runs 512 (ext f) 8]; exact sum_ext f

end Cert.MaskedLinear

end
-- ==== Proof.KernelIdealEntry.lean ====
/-
  The body's three stored values, read at an entry over the extended reals.

  With a an activation block [1024, 512], w a weight block and v a block of mask words [1024, 512], acc the accumulator
  [1024, 1024] and b a bias block [1024]:
    the zeros stored at a first step are 0 at every entry;
    the accumulate-payload at (p, r) is acc (p, r) + sum over k < 512 of a (p, k) * (w (r, k) * [v (r, k) ≠ 0]) —
      a change of float format is the identity here, and the matrix product contracts the last axis of both operands
      into a zero accumulator, so it is that plain sum;
    the bias-payload at (p, r) is acc (p, r) + b r — the bias is laid along the rows.
  The number [v ≠ 0] is the signed integer-to-float conversion of the comparison bit widened to 32 bits: 1 or 0.
-/
import proofs.«122138_j13675175870903_1_alg».proof.Proof.Gen.KernelIdeal.Skeleton
import proofs.«122138_j13675175870903_1_alg».proof.Proof.LibMatmulTransposedRhs
import proofs.«122138_j13675175870903_1_alg».proof.Proof.MaskedLinearSpec
import Idealize.ShloMosaic.Lib.ValueLayout
import Idealize.ShloMosaic.Lib.Pipeline.Value

noncomputable section

namespace Cert.KernelIdeal.Entry

open Idealize.ShloMosaic Idealize.ShloMosaic.ValueIdx
open Cert.KernelIdeal Cert.KernelIdeal.Gen Cert.MaskedLinear

/-- The number a staged 32-bit mask word stands for in the body: 1 unless the word is 0. -/
def wordVal (v : BitVec 32) : EReal :=
  FloatOps.sitofp (F := Ideal) .f32 ((IntOp.cmpi .ne v 0#32).setWidth 32)

/-- A mask bit widened to a word stands for the bit's own number. -/
theorem wordVal_widen (b : BitVec 1) : wordVal (b.setWidth 32) = bitVal b := by
  have hb : b = 0#1 ∨ b = 1#1 := by
    by_cases h : b = 1#1
    · exact Or.inr h
    · exact Or.inl (eq_zero_of_ne_one h)
  rcases hb with rfl | rfl
  · show ((((IntOp.cmpi .ne ((0#1).setWidth 32) 0#32).setWidth 32).toInt : ℝ) : EReal) = (((0#1).toNat : ℝ) : EReal)
    norm_num [IntOp.cmpi]
  · have e : ((IntOp.cmpi .ne ((1#1 : BitVec 1).setWidth 32) 0#32).setWidth 32).toInt = 1 := by decide
    show ((((IntOp.cmpi .ne ((1#1 : BitVec 1).setWidth 32) 0#32).setWidth 32).toInt : ℝ) : EReal) = (((1#1 : BitVec 1).toNat : ℝ) : EReal)
    rw [e]
    norm_num

/-- The zeros a first step stores. -/
theorem zeros_apply (j : S1024x1024.Idx) : k0_pay1 (F := Ideal) j = 0 := by
  unfold k0_pay1
  rw [shapeCast_self]
  exact Ideal.ofBits_zero_f32

/-- The accumulate-payload at an entry. -/
theorem accumulate_apply (a w : Vec Ideal S1024x512 .f32) (v : Vec Ideal S1024x512 .i32) (acc : Vec Ideal S1024x1024 .f32)
    (p r : Fin 1024) :
    k0_pay2 (F := Ideal) a w v acc (ix2 p r)
      = acc (ix2 p r) + ∑ k : Fin 512, a (ix2 p k) * (w (ix2 r k) * wordVal (v (ix2 r k))) := by
  unfold k0_pay2
  rw [shapeCast_self, shapeCast_self]
  refine congrArg (acc (ix2 p r) + ·) ?_
  exact Cert.MatmulTransposedRhs.apply (M := 1024) (K := 512) (N := 1024) none _ _ p r

/-- The bias-payload at an entry. -/
theorem bias_apply (acc : Vec Ideal S1024x1024 .f32) (b : Vec Ideal S1024 .f32) (p r : Fin 1024) :
    k0_pay3 (F := Ideal) acc b (ix2 p r) = acc (ix2 p r) + b (ix1 r) := by
  unfold k0_pay3
  refine congrArg (acc (ix2 p r) + ·) ?_
  exact (broadcastTo_1b_ab_apply _ _ p r).trans (shapeCast_a_1a_apply b _ 0 r)

end Cert.KernelIdeal.Entry

end
-- ==== Proof.KernelIdealSums.lean ====
/-
  The accumulator and the output block, entry by entry, as sums over the arrays the region reads.

  Point t of the grid has contraction step t mod 8, row block (t / 8) mod 4 and column block t / 32. Its activation block
  holds rows 1024·((t/8) mod 4) … of the flattened activations and columns 512·(t mod 8) …; its weight and mask blocks
  hold rows 1024·(t/32) … of their arrays and the same columns; its bias block holds entries 1024·(t/32) …. So at entry
  (p, r) the product the body adds at point t is run number t mod 8 (of length 512) of the 4096 products of entry
  (1024·((t/8) mod 4) + p, 1024·(t/32) + r) of the layer on flattened rows; the accumulator after point t is the sum of
  runs 0 … t mod 8; and at t mod 8 = 7 the output block holds all eight runs, which is the whole contraction, plus the bias.
-/
import proofs.«122138_j13675175870903_1_alg».proof.Proof.KernelIdealAccumulate
import proofs.«122138_j13675175870903_1_alg».proof.Proof.KernelIdealEntry

noncomputable section

namespace Cert.KernelIdeal.Sums

open Idealize.ShloMosaic Idealize.ShloMosaic.TcCoe Idealize.SL.Sem Idealize.ShloMosaic.ValueIdx Finset
open Cert.KernelIdeal Cert.KernelIdeal.Gen Cert.KernelIdeal.Accum Cert.KernelIdeal.Entry Cert.MaskedLinear

variable (m : (ℓ : Loc nD τ sig) → Buf (Elt Ideal) ℓ)

/-- The four arrays the region reads, at their literal types: flattened activations, weights, mask words, bias. -/
abbrev actArr (c : Dev nD) : Vec Ideal S4096x4096 .f32 := V m c main_v0
abbrev wgtArr (c : Dev nD) : Vec Ideal S16384x4096 .f32 := V m c main_arg1
abbrev mskArr (c : Dev nD) : Vec Ideal S16384x4096 .i32 := V m c main_v1
abbrev biasArr (c : Dev nD) : Vec Ideal S16384 .f32 := V m c main_arg3

/-- The mask words as numbers. -/
def mskNum (c : Dev nD) : S16384x4096.Idx → EReal := fun i => wordVal (mskArr m c i)

/-- The printed index maps in closed form, decided over the grid. -/
theorem idx_facts : ∀ t : Fin cfg0.N,
    win0_0.index t (0 : Fin 2) = t.val / 8 % 4 ∧ win0_0.index t (1 : Fin 2) = t.val % 8
    ∧ win0_1.index t (0 : Fin 2) = t.val / 32 % 16 ∧ win0_1.index t (1 : Fin 2) = t.val % 8
    ∧ win0_2.index t (0 : Fin 2) = t.val / 32 % 16 ∧ win0_2.index t (1 : Fin 2) = t.val % 8
    ∧ win0_3.index t (0 : Fin 1) = t.val / 32 % 16
    ∧ win0_4.index t (0 : Fin 2) = t.val / 8 % 4 ∧ win0_4.index t (1 : Fin 2) = t.val / 32 % 16 :=
  (by decide +kernel : ∀ t : Fin grid0.N, _)

/-- Row `p` of point `n`'s row block, and column `r` of its column block, in the whole arrays. -/
def rowOf (n : ℕ) (p : Fin 1024) : Fin 4096 := ⟨1024 * (n / 8 % 4) + p.val, by have := p.isLt; omega⟩
def colOf (n : ℕ) (r : Fin 1024) : Fin 16384 := ⟨1024 * (n / 32 % 16) + r.val, by have := r.isLt; omega⟩
/-- Input feature `k` of contraction step `s`. -/
def featOf (s : ℕ) (k : Fin 512) : Fin 4096 := ⟨512 * (s % 8) + k.val, by have := k.isLt; omega⟩

theorem actBlk_apply (c : Dev nD) (t : Fin cfg0.N) (p : Fin 1024) (k : Fin 512) :
    actBlk m c t (ix2 p k) = actArr m c (ix2 (rowOf t.val p) (featOf t.val k)) := by
  obtain ⟨e00, e01, -⟩ := idx_facts t
  unfold actBlk iblk
  rw [View.read_apply]
  show V m c main_v0 _ = V m c main_v0 _
  refine congrArg (V m c main_v0) (funext fun a => Fin.ext ?_)
  match a with
  | ⟨0, _⟩ => show win0_0.index t (0 : Fin 2) * 1024 + 1 * p.val = 1024 * (t.val / 8 % 4) + p.val; omega
  | ⟨1, _⟩ => show win0_0.index t (1 : Fin 2) * 512 + 1 * k.val = 512 * (t.val % 8) + k.val; omega

theorem wgtBlk_apply (c : Dev nD) (t : Fin cfg0.N) (r : Fin 1024) (k : Fin 512) :
    wgtBlk m c t (ix2 r k) = wgtArr m c (ix2 (colOf t.val r) (featOf t.val k)) := by
  obtain ⟨-, -, e10, e11, -⟩ := idx_facts t
  unfold wgtBlk iblk
  rw [View.read_apply]
  show V m c main_arg1 _ = V m c main_arg1 _
  refine congrArg (V m c main_arg1) (funext fun a => Fin.ext ?_)
  match a with
  | ⟨0, _⟩ => show win0_1.index t (0 : Fin 2) * 1024 + 1 * r.val = 1024 * (t.val / 32 % 16) + r.val; omega
  | ⟨1, _⟩ => show win0_1.index t (1 : Fin 2) * 512 + 1 * k.val = 512 * (t.val % 8) + k.val; omega

theorem mskBlk_apply (c : Dev nD) (t : Fin cfg0.N) (r : Fin 1024) (k : Fin 512) :
    mskBlk m c t (ix2 r k) = mskArr m c (ix2 (colOf t.val r) (featOf t.val k)) := by
  obtain ⟨-, -, -, -, e20, e21, -⟩ := idx_facts t
  unfold mskBlk iblk
  rw [View.read_apply]
  show V m c main_v1 _ = V m c main_v1 _
  refine congrArg (V m c main_v1) (funext fun a => Fin.ext ?_)
  match a with
  | ⟨0, _⟩ => show win0_2.index t (0 : Fin 2) * 1024 + 1 * r.val = 1024 * (t.val / 32 % 16) + r.val; omega
  | ⟨1, _⟩ => show win0_2.index t (1 : Fin 2) * 512 + 1 * k.val = 512 * (t.val % 8) + k.val; omega

theorem biasBlk_apply (c : Dev nD) (t : Fin cfg0.N) (r : Fin 1024) :
    biasBlk m c t (ix1 r) = biasArr m c (ix1 (colOf t.val r)) := by
  obtain ⟨-, -, -, -, -, -, e30, -⟩ := idx_facts t
  unfold biasBlk iblk
  rw [View.read_apply]
  show V m c main_arg3 _ = V m c main_arg3 _
  refine congrArg (V m c main_arg3) (funext fun a => Fin.ext ?_)
  match a with
  | ⟨0, _⟩ => show win0_3.index t (0 : Fin 1) * 1024 + 1 * r.val = 1024 * (t.val / 32 % 16) + r.val; omega

/-- The 4096 products of entry (row, col) of the layer on flattened rows, extended by 0 to the naturals. -/
abbrev prods (c : Dev nD) (row : Fin 4096) (col : Fin 16384) : ℕ → EReal :=
  ext (term (actArr m c) (wgtArr m c) (mskNum m c) row col)

/-- What point `t` adds at entry (p, r): run `t mod 8` of the entry's products. -/
theorem step_sum (c : Dev nD) (t : Fin cfg0.N) (p r : Fin 1024) :
    ∑ k : Fin 512, actBlk m c t (ix2 p k) * (wgtBlk m c t (ix2 r k) * wordVal (mskBlk m c t (ix2 r k)))
      = ∑ k ∈ range 512, prods m c (rowOf t.val p) (colOf t.val r) (512 * (t.val % 8) + k) := by
  rw [Finset.sum_range]
  refine Finset.sum_congr rfl fun k _ => ?_
  rw [actBlk_apply, wgtBlk_apply, mskBlk_apply]
  exact (ext_val (term (actArr m c) (wgtArr m c) (mskNum m c) (rowOf t.val p) (colOf t.val r)) (featOf t.val k)).symm

/-- The accumulator after point `n` at entry (p, r): runs 0 … n mod 8 of the entry's products. -/
theorem accAt_apply (c : Dev nD) : ∀ (n : ℕ) (h : n < cfg0.N) (p r : Fin 1024),
    accAt (F := Ideal) m c n h (ix2 p r)
      = ∑ s ∈ range (n % 8 + 1), ∑ k ∈ range 512, prods m c (rowOf n p) (colOf n r) (512 * s + k)
  | 0, h, p, r => by
    rw [accAt_restart m c ⟨0, h⟩ rfl, accumulate_apply, zeros_apply, zero_add, step_sum]
    show ∑ k ∈ range 512, prods m c (rowOf 0 p) (colOf 0 r) (512 * 0 + k)
      = ∑ s ∈ range 1, ∑ k ∈ range 512, prods m c (rowOf 0 p) (colOf 0 r) (512 * s + k)
    rw [Finset.sum_range_one]
  | n + 1, h, p, r => by
    by_cases h0 : (n + 1) % 8 = 0
    · rw [accAt_restart m c ⟨n + 1, h⟩ h0, accumulate_apply, zeros_apply, zero_add, step_sum]
      show ∑ k ∈ range 512, prods m c (rowOf (n + 1) p) (colOf (n + 1) r) (512 * ((n + 1) % 8) + k)
        = ∑ s ∈ range ((n + 1) % 8 + 1), ∑ k ∈ range 512, prods m c (rowOf (n + 1) p) (colOf (n + 1) r) (512 * s + k)
      rw [h0, Nat.zero_add, Finset.sum_range_one]
    · have e1 : (n + 1) % 8 = n % 8 + 1 := by omega
      have er : rowOf (n + 1) p = rowOf n p := Fin.ext (by show 1024 * ((n + 1) / 8 % 4) + p.val = 1024 * (n / 8 % 4) + p.val; omega)
      have ec : colOf (n + 1) r = colOf n r := Fin.ext (by show 1024 * ((n + 1) / 32 % 16) + r.val = 1024 * (n / 32 % 16) + r.val; omega)
      rw [accAt_step m c n h h0, accumulate_apply, accAt_apply c n (Nat.lt_of_succ_lt h) p r, step_sum]
      show _ + ∑ k ∈ range 512, prods m c (rowOf (n + 1) p) (colOf (n + 1) r) (512 * ((n + 1) % 8) + k) = _
      rw [er, ec, e1, Finset.sum_range_succ _ (n % 8 + 1)]

/-- At a point with `t mod 8 = 7` the output block at entry (p, r) is the layer on flattened rows at the entry the
    block covers. -/
theorem out_entry (c : Dev nD) (t : Fin cfg0.N) (h1 : t.val % 8 = 7) (p r : Fin 1024) :
    (outsAt0 m c t.val t.isLt).1 (ix2 p r)
      = flat (actArr m c) (wgtArr m c) (mskNum m c) (biasArr m c) (ix2 (rowOf t.val p) (colOf t.val r)) := by
  rw [out_eq m c t h1, bias_apply, accAt_apply, h1, biasBlk_apply]
  show (∑ s ∈ range 8, ∑ k ∈ range 512, prods m c (rowOf t.val p) (colOf t.val r) (512 * s + k)) + biasArr m c (ix1 (colOf t.val r))
    = (∑ k : Fin 4096, term (actArr m c) (wgtArr m c) (mskNum m c) (rowOf t.val p) (colOf t.val r) k) + biasArr m c (ix1 (colOf t.val r))
  rw [eight_runs]

end Cert.KernelIdeal.Sums

end
-- ==== Proof.KernelIdealResult.lean ====
/-
  From output blocks to the program's result.

  Every output block is written back exactly once, after the eighth contraction step of its (row block, column block):
  the 64 blocks of 1024 x 1024 tile the [4096, 16384] array, so after the run that array is the layer on flattened
  rows, of the arrays the region reads. Those are: the activations reshaped from [2, 2048, 4096] to [4096, 4096]
  (row 2048 b + s is row (b, s)), the weights and the bias as given, and the mask bits widened to 32-bit words (a word
  stands for its bit's number). The program's result is that array reshaped to [2, 2048, 16384], so entry (b, s, o) of
  the result is entry (2048 b + s, o) of the array: the layer in the layout of its arguments.
-/
import proofs.«122138_j13675175870903_1_alg».proof.Proof.KernelIdealSums
import Idealize.ShloMosaic.Lib.StableHlo.Run

set_option maxRecDepth 16384

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Accum Cert.KernelIdeal.Entry Cert.KernelIdeal.Sums Cert.MaskedLinear

variable (m : (ℓ : Loc nD τ sig) → Buf (Elt Ideal) ℓ) (ρ : Dev nD → PrngReg)

/-- The [4096, 16384] array after the run: the layer on flattened rows, of the arrays the region reads. -/
abbrev flatOut (c : Dev nD) : Buf (Elt Ideal) ((c : Thread nD τ).loc main_v2) :=
  flat (actArr m c) (wgtArr m c) (mskNum m c) (biasArr m c)

/-- What a point with `t mod 8 = 7` writes back is its block of that array. -/
theorem flushed_eq (c : Dev nD) (t : Fin cfg0.N) (hf : (cfg0.win 4).flush t = true) :
    (dats m 0 c).flushed 4 t = ((cfg0.win 4).blk t).view.read (Elt Ideal) (flatOut m c) := by
  have h1 : t.val % 8 = 7 := (flush0_4 t).mp hf
  obtain ⟨-, -, -, -, -, -, -, e40, e41⟩ := idx_facts t
  show (cfg0.win 4).cut (grid0.coords t) ((dats m 0 c).after 4 t) = _
  rw [after0_4]
  refine funext fun (j : S1024x1024.Idx) => ?_
  obtain ⟨p, r, rfl⟩ : ∃ (p r : Fin 1024), j = ix2 p r := ⟨j 0, j 1, eq_ix2 j⟩
  show (outsAt0 m c t.val t.isLt).1 (ix2 p r) = flatOut m c (((cfg0.win 4).blk t).view.emb (ix2 p r))
  rw [out_entry m c t h1]
  refine congrArg (flatOut m c) (funext fun a => Fin.ext ?_)
  match a with
  | ⟨0, _⟩ => show 1024 * (t.val / 8 % 4) + p.val = win0_4.index t (0 : Fin 2) * 1024 + 1 * p.val; omega
  | ⟨1, _⟩ => show 1024 * (t.val / 32 % 16) + r.val = win0_4.index t (1 : Fin 2) * 1024 + 1 * r.val; omega

/-- An entry of the array lies in point `t`'s block iff each coordinate lies in the block's range. -/
theorem mem_block (t : Fin cfg0.N) (i : S4096x16384.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v2).slice (win0_4.rect t)).set ↔ _
  rw [View.set_slice_whole, Rect.mem_set_unit]
  exact Iff.rfl

/-- Entry (r, o) is written back by the point of column block o / 1024, row block r / 1024, contraction step 7. -/
theorem covered (i : S4096x16384.Idx) :
    ∃ t : Fin cfg0.N, (cfg0.win 4).flush t = true ∧ i ∈ ((cfg0.win 4).blk t).view.set := by
  have hi0 : (i 0).val < 4096 := (i 0).isLt
  have hi1 : (i 1).val < 16384 := (i 1).isLt
  have hN : cfg0.N = 512 := N_0
  let t : Fin cfg0.N := ⟨32 * ((i 1).val / 1024) + 8 * ((i 0).val / 1024) + 7, by rw [hN]; omega⟩
  have ht : t.val = 32 * ((i 1).val / 1024) + 8 * ((i 0).val / 1024) + 7 := rfl
  obtain ⟨-, -, -, -, -, -, -, e40, e41⟩ := idx_facts t
  refine ⟨t, (flush0_4 t).mpr (by omega), ?_⟩
  rw [mem_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- So the array ends holding the layer on flattened rows. -/
theorem final_array (c : Dev nD) : (dats m 0 c).arrAt 4 cfg0.N = flatOut m c :=
  (dats m 0 c).arrAt_eq_of_cover 4 (flatOut m c) (flushed_eq m c) (covered)

/-! ## The arrays the region reads, from the program's arguments -/

/-- The program's four arguments at their literal types. -/
abbrev xArg (c : Dev nD) : Vec Ideal S2x2048x4096 .f32 := m ((c : Thread nD τ).loc main_arg0)
abbrev wArg (c : Dev nD) : Vec Ideal S16384x4096 .f32 := m ((c : Thread nD τ).loc main_arg1)
abbrev mArg (c : Dev nD) : Vec Ideal S16384x4096 .i1 := m ((c : Thread nD τ).loc main_arg2)
abbrev bArg (c : Dev nD) : Vec Ideal S16384 .f32 := m ((c : Thread nD τ).loc main_arg3)

theorem actArr_eq (c : Dev nD) :
    actArr m c = shapeCast S4096x4096 (xArg m c) shapeCasts_S2x2048x4096_S4096x4096 := by
  show StableHlo.after hostOps0 (fun b => m (c, b)) (Proc.devRef .tc main_v0) = _
  after_results
  rfl

theorem mskArr_eq (c : Dev nD) :
    mskArr m c = extui 32 (mArg m c) natLt_1_32 := by
  show StableHlo.after hostOps0 (fun b => m (c, b)) (Proc.devRef .tc main_v1) = _
  after_results

theorem wgtArr_eq (c : Dev nD) : wgtArr m c = wArg m c := V_main_arg1 m c
theorem biasArr_eq (c : Dev nD) : biasArr m c = bArg m c := V_main_arg3 m c

/-- Row 2048 b + s of the flattened activations is row (b, s) of x. -/
theorem actArr_apply (c : Dev nD) (b : Fin 2) (s : Fin 2048) (k : Fin 4096) :
    actArr m c (ix2 (flatRow b s) k) = xArg m c (ix3 b s k) := by
  rw [actArr_eq]
  refine shapeCast_apply _ _ _ _ ?_
  show (S2x2048x4096.rowMajor (ix3 b s k)).val = (S4096x4096.rowMajor (ix2 (flatRow b s) k)).val
  rw [Shape.rowMajor_val_three, Shape.rowMajor_val_two]
  show (b.val * 2048 + s.val) * 4096 + k.val = (2048 * b.val + s.val) * 4096 + k.val
  omega

/-- A widened mask bit stands for the bit's number. -/
theorem mskNum_apply (c : Dev nD) (i : S16384x4096.Idx) :
    mskNum m c i = bitVal (mArg m c i) := by
  unfold mskNum
  rw [mskArr_eq]
  exact wordVal_widen _

/-- The layer on flattened rows at (2048 b + s, o) is the layer at (b, s, o). -/
theorem flatOut_apply (c : Dev nD) (b : Fin 2) (s : Fin 2048) (o : Fin 16384) :
    flatOut m c (ix2 (flatRow b s) o)
      = layer (xArg m c) (wArg m c) (mArg m c) (bArg m c) (ix3 b s o) := by
  show (∑ k : Fin 4096, actArr m c (ix2 (flatRow b s) k) * (wgtArr m c (ix2 o k) * mskNum m c (ix2 o k))) + biasArr m c (ix1 o)
    = (∑ k : Fin 4096, xArg m c (ix3 b s k) * (wArg m c (ix2 o k) * bitVal (mArg m c (ix2 o k)))) + bArg m c (ix1 o)
  rw [biasArr_eq, wgtArr_eq]
  refine congrArg (· + bArg m c (ix1 o)) (Finset.sum_congr rfl fun k _ => ?_)
  rw [actArr_apply, mskNum_apply]

/-! ## The result -/

/-- The program's result: the array reshaped to [2, 2048, 16384] is the layer. -/
theorem result_eq (c : Dev nD) :
    Pipeline.afterTail₀ cfgs (dats m) 0 (V0 m) [hostOps1] c main_v3
      = layer (xArg m c) (wArg m c) (mArg m c) (bArg m c) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v2)
      = flatOut m c from (Pipeline.withArrays_arr spec0 launch0.win.arr_inj c _ _ 4).trans (final_array m c)]
  funext i
  obtain ⟨b, s, o, rfl⟩ : ∃ (b : Fin 2) (s : Fin 2048) (o : Fin 16384), i = ix3 b s o := ⟨i 0, i 1, i 2, eq_ix3 i⟩
  rw [← flatOut_apply]
  refine shapeCast_apply _ _ _ _ ?_
  show (S4096x16384.rowMajor (ix2 (flatRow b s) o)).val = (S2x2048x16384.rowMajor (ix3 b s o)).val
  rw [Shape.rowMajor_val_three, Shape.rowMajor_val_two]
  show (2048 * b.val + s.val) * 16384 + o.val = (b.val * 2048 + s.val) * 16384 + o.val
  omega

/-- The run, read: the result at the layer of the arguments, the arguments unchanged. -/
theorem run : θ_run defs (onTc (τ := τ) (main (F := Ideal))) ⟨m, fun _ => 0, ρ⟩ fun r => ∀ c : Dev nD,
      r.2.mem ((c.tc : Thread nD τ).loc main_v3)
        = layer (xArg m c) (wArg m c) (mArg m c) (bArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c),
        ((h c).1 3).trans (((dats m 0 c).arrAt_in 3 rfl _).trans ((A_eq m c 3).trans (V_main_arg3 m c)))⟩)
    (run_main m ρ)

end Cert.KernelIdeal.Result

end
-- ==== Proof.ReferenceValue.lean ====
/-
  The reference program's result, read entry by entry over the extended reals, is the masked linear layer.

  The reference turns the mask into numbers (an unsigned integer-to-float conversion of a one-bit word: 1 or 0),
  multiplies the weight by it entry by entry, contracts the last axis of x with the last axis of that product, and
  adds the bias broadcast along the two leading axes. Entry (b, s, o) is therefore
      (sum over k of x (b, s, k) * (w (o, k) * [mask (o, k)])) + bias o.
-/
import proofs.«122138_j13675175870903_1_alg».proof.Proof.Gen.ReferenceIdeal.Read
import proofs.«122138_j13675175870903_1_alg».proof.Proof.MaskedLinearSpec

noncomputable section

namespace Cert.ReferenceIdeal.RefValue

open Cert.ReferenceIdeal Cert.ReferenceIdeal.Read Idealize.ShloMosaic Idealize.ShloMosaic.ValueIdx Cert.MaskedLinear

/-- The contraction reads x at (b, s, k) … -/
theorem lhs_coords (b : Fin 2) (s : Fin 2048) (o : Fin 16384) (k : Fin 4096) :
    lidx_main_v2 (ix3 b s o) k = ix3 b s k :=
  funext fun a => Fin.ext (by
    match a with
    | ⟨0, _⟩ => rfl
    | ⟨1, _⟩ => rfl
    | ⟨2, _⟩ => rfl)

/-- … and the masked weight at (o, k). -/
theorem rhs_coords (b : Fin 2) (s : Fin 2048) (o : Fin 16384) (k : Fin 4096) :
    ridx_main_v2 (ix3 b s o) k = ix2 o k :=
  funext fun a => Fin.ext (by
    match a with
    | ⟨0, _⟩ => rfl
    | ⟨1, _⟩ => rfl)

/-- The twice-broadcast bias is read at the output feature. -/
theorem bias_coords (b : Fin 2) (s : Fin 2048) (o : Fin 16384) : idx_main_v3 (idx_main_v4 (ix3 b s o)) = ix1 o :=
  funext fun a => Fin.ext (by
    match a with
    | ⟨0, _⟩ => rfl)

/-- The reference's result is the layer. -/
theorem reference_is_layer (x : (⟨S2x2048x4096, .f32⟩ : BufTy).Contents (Elt Ideal))
    (w : (⟨S16384x4096, .f32⟩ : BufTy).Contents (Elt Ideal)) (msk : (⟨S16384x4096, .i1⟩ : BufTy).Contents (Elt Ideal))
    (bias : (⟨S16384, .f32⟩ : BufTy).Contents (Elt Ideal)) :
    val_main_v5 (F := Ideal) x w msk bias = layer x w msk bias := by
  funext i
  obtain ⟨b, s, o, rfl⟩ : ∃ (b : Fin 2) (s : Fin 2048) (o : Fin 16384), i = ix3 b s o := ⟨i 0, i 1, i 2, eq_ix3 i⟩
  rw [val_main_v5_apply, val_main_v2_apply, val_main_v4_apply, val_main_v3_apply, bias_coords]
  show (∑ k : Fin 4096, x (lidx_main_v2 (ix3 b s o) k) * val_main_v1 (F := Ideal) w msk (ridx_main_v2 (ix3 b s o) k)) + bias (ix1 o)
    = (∑ k : Fin 4096, x (ix3 b s k) * (w (ix2 o k) * bitVal (msk (ix2 o k)))) + bias (ix1 o)
  refine congrArg (· + bias (ix1 o)) (Finset.sum_congr rfl fun k _ => ?_)
  rw [lhs_coords, rhs_coords, val_main_v1_apply, val_main_v0_apply]
  rfl

end Cert.ReferenceIdeal.RefValue

end
-- ==== Proof.lean ====
/-
  A masked (2:4-sparse) linear layer, y = x · (mask ∘ W)ᵀ + b, computed by a tiled kernel and by a plain reference.

  Over the extended reals both programs compute, at entry (b, s, o),
      (sum over k < 4096 of x (b, s, k) * (W (o, k) * [mask (o, k)])) + bias o,
  with [mask] the number 1 on a set bit and 0 on a cleared one.
  The reference does it in one contraction. The kernel flattens the rows (b, s) to 2048 b + s, walks a grid of
  16 column blocks x 4 row blocks x 8 contraction steps, keeps a [1024, 1024] accumulator that it zeroes at step 0 and
  to which every step adds the product of its [1024, 512] activation block with its masked [1024, 512] weight block,
  and at step 7 writes accumulator + bias to the output block; the result is reshaped back to [2, 2048, 16384].
  The eight partial sums of 512 products are the 4096 products regrouped, and regrouping a finite sum needs only
  commutativity and associativity of addition, which the extended reals have: the precondition (finite inputs) is not used.
  Changes of float format are the identity over the extended reals, and the kernel's way of turning a mask bit into a
  number (widen to a word, compare with 0, widen, convert as a signed integer) gives the same 1 or 0 as the reference's
  unsigned conversion of the bit.
  The idealization rewrote nothing, so the kernel's idealized program is its own text read over the extended reals.
-/
import proofs.«122138_j13675175870903_1_alg».proof.Defs
import proofs.«122138_j13675175870903_1_alg».proof.Proof.Gen.Kernel
import proofs.«122138_j13675175870903_1_alg».proof.Proof.Gen.Kernel.Frame
import proofs.«122138_j13675175870903_1_alg».proof.Proof.Gen.KernelIdeal
import proofs.«122138_j13675175870903_1_alg».proof.Proof.Gen.KernelIdeal.Frame
import proofs.«122138_j13675175870903_1_alg».proof.Proof.Gen.ReferenceIdeal
import proofs.«122138_j13675175870903_1_alg».proof.Proof.Gen.ReferenceIdeal.Run
import proofs.«122138_j13675175870903_1_alg».proof.Proof.Gen.Pre_finite_inputs
import proofs.«122138_j13675175870903_1_alg».proof.Proof.KernelIdealResult
import proofs.«122138_j13675175870903_1_alg».proof.Proof.ReferenceValue
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- Both programs end with the layer of their (agreeing) arguments. -/
theorem algebraic : Cert.algebraic_KernelIdeal_ReferenceIdeal := by
  intro m ρ m' ρ' _ hagree
  refine ⟨fun c => Cert.MaskedLinear.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefValue.reference_is_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
